-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : IVec S50000 32) (main_arg3 : FVec F S800000 .f32) (main_arg4 : FVec F S128x128 .f32) (main_arg5 : FVec F S128 .f32) (main_arg6 : FVec F S64x128 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S128x64 : Shape := ⟨2, ![128, 64]⟩
abbrev S1x64 : Shape := ⟨2, ![1, 64]⟩
abbrev S512x64 : Shape := ⟨2, ![512, 64]⟩

abbrev nBuf : Space → Nat
  | .hbm => 85
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S50000, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S128x128, .f32⟩
  | .hbm, ⟨51, _⟩ => ⟨S50000x128, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S512x128, .f32⟩
  | .hbm, ⟨73, _⟩ => ⟨S50000x1, .i32⟩
  | .hbm, ⟨74, _⟩ => ⟨S512x128, .f32⟩
  | .hbm, ⟨75, _⟩ => ⟨S_, .f32⟩
  | .hbm, ⟨76, _⟩ => ⟨S50000, .f32⟩
  | .hbm, ⟨77, _⟩ => ⟨S_, .f32⟩
  | .hbm, ⟨78, _⟩ => ⟨S512, .f32⟩
  | .hbm, ⟨79, _⟩ => ⟨S50000x1, .i32⟩
  | .hbm, ⟨80, _⟩ => ⟨S512, .f32⟩
  | .hbm, ⟨81, _⟩ => ⟨S512x1, .f32⟩
  | .hbm, ⟨82, _⟩ => ⟨S128x64, .f32⟩
  | .hbm, ⟨83, _⟩ => ⟨S1x64, .f32⟩
  | .hbm, ⟨84, _⟩ => ⟨S512x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S512x128, .f32⟩
  | .local _ .vmem, ⟨6, _⟩ => ⟨S512x1, .f32⟩
  | .local _ .vmem, ⟨7, _⟩ => ⟨S128x64, .f32⟩
  | .local _ .vmem, ⟨8, _⟩ => ⟨S1x64, .f32⟩
  | .local _ .vmem, ⟨9, _⟩ => ⟨S512x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  transposes_S64x128_S128x64_1_0 : S64x128.Transposes [1, 0] S128x64
  bcast_S64_S1x64_1 : S64.BroadcastsInDim S1x64 (![1] : Fin 1 → Fin S1x64.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S512x128.size a
  hwx1_0 : ∀ i : grid1.Coords, EltTy.bits .f32 = 32 ∨ (Rect.block (s := S512x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S512x1.size a
  hwx1_1 : ∀ i : grid1.Coords, EltTy.bits .f32 = 32 ∨ (Rect.block (s := S512x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S512x64.size a
  hwx1_4 : ∀ i : grid1.Coords, EltTy.bits .f32 = 32 ∨ (Rect.block (s := S512x64) S512x64.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S512x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v57) S512x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S512x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S128x64 : Shape := ⟨2, ![128, 64]⟩
abbrev S512x64 : Shape := ⟨2, ![512, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S50000, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S128x128, .f32⟩
  | .hbm, ⟨51, _⟩ => ⟨S50000x128, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S512x128, .f32⟩
  | .hbm, ⟨73, _⟩ => ⟨S50000x1, .i32⟩
  | .hbm, ⟨74, _⟩ => ⟨S512x128, .f32⟩
  | .hbm, ⟨75, _⟩ => ⟨S_, .f32⟩
  | .hbm, ⟨76, _⟩ => ⟨S50000, .f32⟩
  | .hbm, ⟨77, _⟩ => ⟨S_, .f32⟩
  | .hbm, ⟨78, _⟩ => ⟨S512, .f32⟩
  | .hbm, ⟨79, _⟩ => ⟨S50000x1, .i32⟩
  | .hbm, ⟨80, _⟩ => ⟨S512, .f32⟩
  | .hbm, ⟨81, _⟩ => ⟨S_, .f32⟩
  | .hbm, ⟨82, _⟩ => ⟨S512, .f32⟩
  | .hbm, ⟨83, _⟩ => ⟨S512, .f32⟩
  | .hbm, ⟨84, _⟩ => ⟨S512x1, .f32⟩
  | .hbm, ⟨85, _⟩ => ⟨S512x128, .f32⟩
  | .hbm, ⟨86, _⟩ => ⟨S512x128, .f32⟩
  | .hbm, ⟨87, _⟩ => ⟨S128x64, .f32⟩
  | .hbm, ⟨88, _⟩ => ⟨S512x64, .f32⟩
  | .hbm, ⟨89, _⟩ => ⟨S1x64, .f32⟩
  | .hbm, ⟨90, _⟩ => ⟨S512x64, .f32⟩
  | .hbm, ⟨91, _⟩ => ⟨S512x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S64x128_S128x64_1_0 : S64x128.Transposes [1, 0] S128x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x64_S512x64_1_0_0_1_n_n_wf : DotDims.WF S512x128 S128x64 S512x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.HostReads.lean ====
/-
  The host stretches of the kernel's program, read back. Its @main runs: a first stretch of host operations (the
  self-loops, the degrees and their inverse square roots, the edge normalisation, the transposed convolution weights),
  the first kernel region (the dense transform of the node features), a second stretch (gather along the sources, weight,
  scatter-add onto the targets, bias, per-graph sums and node counts, the transposed linear weights, the bias row) and
  the second kernel region (mean and linear layer).

  The reference applies the SAME host operations in the same order around its two `dot_general`s, so every buffer the
  kernel's host stretches write holds the corresponding stage of the reference, as a function of the launch arguments:
  stated here buffer by buffer, for the buffers the regions and the later stretch read. The stages are never opened:
  each equation is closed by unfolding names only. What region 0 leaves in its output array enters as a hypothesis
  (`V5_v52_of`): the second stretch is one function of it.
-/
import proofs.«424621_j18519898980624_2_alg».proof.Proof.Gen.KernelIdeal.Frame
import proofs.«424621_j18519898980624_2_alg».proof.Proof.Gen.ReferenceIdeal.Read
import Idealize.ShloMosaic.Lib.StableHlo.Run

set_option maxRecDepth 16384

noncomputable section

namespace Cert.KernelIdeal.HostReads

open Idealize.ShloMosaic Idealize.ShloMosaic.TcCoe Idealize.SL.Sem Cert.KernelIdeal Cert.KernelIdeal.Gen
open Idealize.ShloMosaic.StableHlo

variable {F : FTy → Type} [FloatOps F]
variable (m : (ℓ : Loc nD τ sig) → Buf (Elt F) ℓ) (ρ : Dev nD → PrngReg)

/-! ## At the first region's entry -/

/-- The node features reach the first region as launched. -/
theorem V3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp <;> rfl

/-- The first region's second operand is the transposed convolution weights. -/
theorem V3_v32 (c : Dev nD) :
    V3 m ρ c main_v32 = Cert.ReferenceIdeal.Read.val_main_v32 (F := F) (m ((c : Thread nD τ).loc main_arg4)) := by
  show StableHlo.after hostOps0_2 (StableHlo.after hostOps0_1 (StableHlo.after hostOps0 (W0 m ρ c))) (Proc.devRef .tc main_v32) = _
  after_results_simp <;> rfl

/-! ## What the first region does not touch: as the first stretch left it -/

/-- The edge normalisation  d^(-1/2)[src] · w · d^(-1/2)[dst]  over the edges with self-loops. -/
theorem W4_v31 (c : Dev nD) : W4 m ρ c (Proc.devRef .tc main_v31)
    = Cert.ReferenceIdeal.Read.val_main_v31 (F := F) (m ((c : Thread nD τ).loc main_arg1)) (m ((c : Thread nD τ).loc main_arg3)) := by
  rw [W4_of_ne m ρ c main_v31 (by decide)]
  show StableHlo.after hostOps0_2 (StableHlo.after hostOps0_1 (StableHlo.after hostOps0 (W0 m ρ c))) (Proc.devRef .tc main_v31) = _
  after_results_simp <;> rfl

/-- The sources with the self-loops appended. -/
theorem W4_v5 (c : Dev nD) : W4 m ρ c (Proc.devRef .tc main_v5)
    = Cert.ReferenceIdeal.Read.val_main_v5 (F := F) (m ((c : Thread nD τ).loc main_arg1)) := by
  rw [W4_of_ne m ρ c main_v5 (by decide)]
  show StableHlo.after hostOps0_2 (StableHlo.after hostOps0_1 (StableHlo.after hostOps0 (W0 m ρ c))) (Proc.devRef .tc main_v5) = _
  after_results_simp <;> rfl

/-- The targets with the self-loops appended. -/
theorem W4_v6 (c : Dev nD) : W4 m ρ c (Proc.devRef .tc main_v6)
    = Cert.ReferenceIdeal.Read.val_main_v6 (F := F) (m ((c : Thread nD τ).loc main_arg1)) := by
  rw [W4_of_ne m ρ c main_v6 (by decide)]
  show StableHlo.after hostOps0_2 (StableHlo.after hostOps0_1 (StableHlo.after hostOps0 (W0 m ρ c))) (Proc.devRef .tc main_v6) = _
  after_results_simp <;> rfl

theorem W4_arg2 (c : Dev nD) : W4 m ρ c (Proc.devRef .tc main_arg2) = m ((c : Thread nD τ).loc main_arg2) := by
  rw [W4_of_ne m ρ c main_arg2 (by decide)]
  show StableHlo.after hostOps0_2 (StableHlo.after hostOps0_1 (StableHlo.after hostOps0 (W0 m ρ c))) (Proc.devRef .tc main_arg2) = _
  after_results_simp <;> rfl

theorem W4_arg5 (c : Dev nD) : W4 m ρ c (Proc.devRef .tc main_arg5) = m ((c : Thread nD τ).loc main_arg5) := by
  rw [W4_of_ne m ρ c main_arg5 (by decide)]
  show StableHlo.after hostOps0_2 (StableHlo.after hostOps0_1 (StableHlo.after hostOps0 (W0 m ρ c))) (Proc.devRef .tc main_arg5) = _
  after_results_simp <;> rfl

theorem W4_arg6 (c : Dev nD) : W4 m ρ c (Proc.devRef .tc main_arg6) = m ((c : Thread nD τ).loc main_arg6) := by
  rw [W4_of_ne m ρ c main_arg6 (by decide)]
  show StableHlo.after hostOps0_2 (StableHlo.after hostOps0_1 (StableHlo.after hostOps0 (W0 m ρ c))) (Proc.devRef .tc main_arg6) = _
  after_results_simp <;> rfl

theorem W4_arg7 (c : Dev nD) : W4 m ρ c (Proc.devRef .tc main_arg7) = m ((c : Thread nD τ).loc main_arg7) := by
  rw [W4_of_ne m ρ c main_arg7 (by decide)]
  show StableHlo.after hostOps0_2 (StableHlo.after hostOps0_1 (StableHlo.after hostOps0 (W0 m ρ c))) (Proc.devRef .tc main_arg7) = _
  after_results_simp <;> rfl

/-! ## At the second region's entry -/

/-- The per-graph sums: if the first region left the reference's transformed features in its output array, the second
    stretch leaves the reference's per-graph sums (the same gather, weighting, scatter-adds and bias applied to them). -/
theorem V5_v52_of (c : Dev nD)
    (h : W4 m ρ c (Proc.devRef .tc main_v33)
      = Cert.ReferenceIdeal.Read.val_main_v33 (F := F) (m ((c : Thread nD τ).loc main_arg0)) (m ((c : Thread nD τ).loc main_arg4))) :
    V5 m ρ c main_v52 = Cert.ReferenceIdeal.Read.val_main_v52 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W4 m ρ c) (Proc.devRef .tc main_v52) = _
  after_results_simp
  rw [h, W4_v31, W4_v5, W4_v6, W4_arg2, W4_arg5]
  rfl

/-- The per-graph node counts, as a column. -/
theorem V5_v57 (c : Dev nD) : V5 m ρ c main_v57
    = broadcastInDim Cert.ReferenceIdeal.S512x1 ![0] Cert.ReferenceIdeal.Facts₀.bcast_S512_S512x1_0
        (Cert.ReferenceIdeal.Read.val_main_v56 (F := F) (m ((c : Thread nD τ).loc main_arg2))) := by
  show StableHlo.after hostOps1 (W4 m ρ c) (Proc.devRef .tc main_v57) = _
  after_results_simp
  rw [W4_arg2]
  rfl

/-- The transposed weights of the linear layer. -/
theorem V5_v58 (c : Dev nD) : V5 m ρ c main_v58 = Cert.ReferenceIdeal.Read.val_main_v62 (F := F) (m ((c : Thread nD τ).loc main_arg6)) := by
  show StableHlo.after hostOps1 (W4 m ρ c) (Proc.devRef .tc main_v58) = _
  after_results_simp
  rw [W4_arg6]
  rfl

/-- The linear layer's bias, as a row. -/
theorem V5_v59 (c : Dev nD) : V5 m ρ c main_v59 = Cert.ReferenceIdeal.Read.val_main_v64 (F := F) (m ((c : Thread nD τ).loc main_arg7)) := by
  show StableHlo.after hostOps1 (W4 m ρ c) (Proc.devRef .tc main_v59) = _
  after_results_simp
  rw [W4_arg7]
  rfl

end Cert.KernelIdeal.HostReads

end
-- ==== Proof.Spec.lean ====
/-
  The two dense stages of the graph-convolution probe as whole-array functions over the extended reals, index by index.

  * `rowsDot x w`: every row of the node-feature matrix `x` ([50000, 128]) against every column of a [128, 128] matrix `w`:
    entry (r, j) is  Σ_k x[r, k] · w[k, j].
  * `meanLinear s cnt w b`: the per-graph mean followed by a linear layer: entry (g, j) is
    Σ_k (s[g, k] / max(cnt[g, 0], 1)) · w[k, j] + b[0, j],  with `s` the per-graph sums [512, 128], `cnt` the per-graph node
    counts as a column [512, 1], `w` a [128, 64] matrix and `b` a bias row [1, 64]. The `1` is the f32 word of 1.0, kept as
    its word: both programs carry the same word.
-/
import Idealize.ShloMosaic.PureOps.Ideal
import Idealize.ShloMosaic.Lib.ValueIdx

noncomputable section

namespace Cert.Spec

open Idealize.ShloMosaic

abbrev Nodes : Shape := ⟨2, ![50000, 128]⟩
abbrev Sq : Shape := ⟨2, ![128, 128]⟩
abbrev Pooled : Shape := ⟨2, ![512, 128]⟩
abbrev CountCol : Shape := ⟨2, ![512, 1]⟩
abbrev LinT : Shape := ⟨2, ![128, 64]⟩
abbrev BiasRow : Shape := ⟨2, ![1, 64]⟩
abbrev Out : Shape := ⟨2, ![512, 64]⟩

/-- (r, k): the entry of row `r` of the features that meets contraction index `k`. -/
abbrev rowAt (i : Nodes.Idx) (k : Fin 128) : Nodes.Idx := fun a => match a with
  | ⟨0, _⟩ => ⟨(i 0).val, (i 0).isLt⟩
  | ⟨1, _⟩ => ⟨k.val, k.isLt⟩
/-- (k, j): the entry of column `j` of the square matrix that meets contraction index `k`. -/
abbrev colAt (i : Nodes.Idx) (k : Fin 128) : Sq.Idx := fun a => match a with
  | ⟨0, _⟩ => ⟨k.val, k.isLt⟩
  | ⟨1, _⟩ => ⟨(i 1).val, (i 1).isLt⟩

/-- Rows of `x` against columns of `w`. -/
def rowsDot (x : Nodes.Idx → EReal) (w : Sq.Idx → EReal) : Nodes.Idx → EReal :=
  fun i => ∑ k : Fin 128, x (rowAt i k) * w (colAt i k)

/-- (g, k) of the pooled sums. -/
abbrev sumAt (i : Out.Idx) (k : Fin 128) : Pooled.Idx := fun a => match a with
  | ⟨0, _⟩ => ⟨(i 0).val, (i 0).isLt⟩
  | ⟨1, _⟩ => ⟨k.val, k.isLt⟩
/-- (g, 0) of the count column. -/
abbrev cntAt (i : Out.Idx) : CountCol.Idx := fun a => match a with
  | ⟨0, _⟩ => ⟨(i 0).val, (i 0).isLt⟩
  | ⟨1, _⟩ => ⟨0, Nat.one_pos⟩
/-- (k, j) of the linear layer's transposed weights. -/
abbrev linAt (i : Out.Idx) (k : Fin 128) : LinT.Idx := fun a => match a with
  | ⟨0, _⟩ => ⟨k.val, k.isLt⟩
  | ⟨1, _⟩ => ⟨(i 1).val, (i 1).isLt⟩
/-- (0, j) of the bias row. -/
abbrev biasAt (i : Out.Idx) : BiasRow.Idx := fun a => match a with
  | ⟨0, _⟩ => ⟨0, Nat.one_pos⟩
  | ⟨1, _⟩ => ⟨(i 1).val, (i 1).isLt⟩

/-- Mean over each graph's nodes (the sum over the count clamped below at one), then the linear layer with its bias. -/
def meanLinear (s : Pooled.Idx → EReal) (cnt : CountCol.Idx → EReal) (w : LinT.Idx → EReal) (b : BiasRow.Idx → EReal) :
    Out.Idx → EReal :=
  fun i => (∑ k : Fin 128, Ideal.div (s (sumAt i k)) (max (cnt (cntAt i)) (Ideal.ofBits .f32 0x3F800000#32)) * w (linAt i k))
    + b (biasAt i)

end Cert.Spec

end
-- ==== Proof.ConvRows.lean ====
/-
  The first kernel region: the dense transform of the node features, ten blocks of 5000 rows.

  At each of its ten grid points the body loads a [5000, 128] block of the features and the whole [128, 128] matrix,
  multiplies them into a zero accumulator and stores the [5000, 128] product. At the extended reals the narrowing of
  the operands is the identity, so entry (r, j) of a block's product is Σ_k x[r, k] · w[k, j] with r the row inside the
  block; block t holds rows 5000 t … 5000 t + 4999, the ten blocks tile the [50000, 128] result, and the array after
  the region is `rowsDot` of the two arrays the region read.
-/
import proofs.«424621_j18519898980624_2_alg».proof.Proof.Gen.KernelIdeal.Frame
import proofs.«424621_j18519898980624_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ConvRows

open Idealize.ShloMosaic Idealize.ShloMosaic.TcCoe Idealize.SL.Sem Cert.KernelIdeal Cert.KernelIdeal.Gen Cert.Spec
open Idealize.ShloMosaic.Pipeline (Dat Cfg Window)

section Blocks

variable (V : (c : Dev nD) → (b : Ref sig .tc) → Buf (Elt Ideal) ((c : Thread nD τ).loc b))

/-! ## One block's product at an index -/

/-- The contraction's left coordinates: the row axis is the result's row. -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the column axis is the contraction index. -/
theorem lhs_contr (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The contraction's right coordinates: the row axis is the contraction index. -/
theorem rhs_contr (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- … and the column axis is the result's column. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- (r, k) inside a block of 5000 rows. -/
abbrev blkRow (j : S5000x128.Idx) (k : Fin 128) : S5000x128.Idx := fun a => match a with
  | ⟨0, _⟩ => ⟨(j 0).val, (j 0).isLt⟩
  | ⟨1, _⟩ => ⟨k.val, k.isLt⟩
/-- (k, c) of the square matrix, for the column of a block's index. -/
abbrev blkCol (j : S5000x128.Idx) (k : Fin 128) : S128x128.Idx := fun a => match a with
  | ⟨0, _⟩ => ⟨k.val, k.isLt⟩
  | ⟨1, _⟩ => ⟨(j 1).val, (j 1).isLt⟩

/-- The body's value at an index of its block: the row of the feature block against the column of the matrix. The
    narrowing casts and the same-shape reshape are the identity on ideal values; the accumulator starts at zero. -/
theorem pay_apply (x0 : Vec Ideal S5000x128 .f32) (x1 : Vec Ideal S128x128 .f32) (j : S5000x128.Idx) :
    k0_pay1 (F := Ideal) x0 x1 j = ∑ k : Fin 128, x0 (blkRow j k) * x1 (blkCol j k) := by
  unfold k0_pay1
  rw [shapeCast_self]
  show FloatOps.matmul dot_S5000x128_S128x128_S5000x128_1_0_0_1_n_n none (truncf (F := Ideal) .bf16 x0 bitsLt_bf16_f32)
    (truncf (F := Ideal) .bf16 x1 bitsLt_bf16_f32) (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blkRow j k := funext fun a => Fin.ext (by
    match a with
    | ⟨0, _⟩ => exact lhs_row _ _
    | ⟨1, _⟩ => exact (lhs_contr _ _).trans hk)
  have er : dot_S5000x128_S128x128_S5000x128_1_0_0_1_n_n.rhsIdx j ((ValueIdx.contrEquiv1 dot_S5000x128_S128x128_S5000x128_1_0_0_1_n_n 128 rfl rfl).symm k) = blkCol j k := funext fun a => Fin.ext (by
    match a with
    | ⟨0, _⟩ => exact (rhs_contr _ _).trans hk
    | ⟨1, _⟩ => exact rhs_col _ _)
  rw [el, er]
  rfl

/-! ## The blocks as pieces of the arrays -/

theorem zero_off : (![0, 0] : Fin 2 → Nat) = fun _ => 0 := funext fun a => by fin_cases a <;> rfl

/-- The printed index maps over the ten points: the feature block and the result block of point `t` sit at block row
    `t`, block column 0; the matrix has the one block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block of point `t` is rows `5000 t … 5000 t + 4999` of the feature matrix. -/
theorem feat_blk (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The matrix's block is the matrix, at every point. -/
theorem mat_blk (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_v32 : S128x128.Idx → EReal) i := by
  obtain ⟨-, -, e2, e3, -, -⟩ := idx_facts t
  unfold iblk0
  rw [View.read_apply]
  show V c main_v32 _ = V c main_v32 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

/-- What point `t` writes back is block `t` of the rows-against-columns product of the two arrays. -/
theorem flushed_eq (c : Dev nD) (t : Fin cfg0.N) :
    (dat0 (F := Ideal) V c).flushed 2 t
      = ((cfg0.win 2).blk t).view.read (Elt Ideal) (rowsDot (V c main_arg0) (V c main_v32)) := by
  show (cfg0.win 2).cut (grid0.coords t) ((dat0 (F := Ideal) V c).after 2 t) = _
  rw [after0_2]
  unfold out0_2
  rw [View.canon_unit_zero zero_off]
  simp only [View.ld_unit_zero (S := S5000x128) zero_off, View.ld_unit_zero (S := S128x128) zero_off]
  obtain ⟨-, -, -, -, e4, e5⟩ := idx_facts t
  funext y
  show k0_pay1 (F := Ideal) (iblk0 V c 0 t) (iblk0 V c 1 t) y
    = rowsDot (V c main_arg0) (V c main_v32) (((cfg0.win 2).blk t).view.emb y)
  refine (pay_apply _ _ y).trans ?_
  unfold rowsDot
  refine Finset.sum_congr rfl fun k _ => ?_
  have r0 : ((((cfg0.win 2).blk t).view.emb y) 0).val = t.val * 5000 + (y 0).val := by
    show win0_2.index t (0 : Fin 2) * 5000 + 1 * (y 0).val = _
    rw [e4]; omega
  have r1 : ((((cfg0.win 2).blk t).view.emb y) 1).val = (y 1).val := by
    show win0_2.index t (1 : Fin 2) * 128 + 1 * (y 1).val = _
    rw [e5]; omega
  rw [feat_blk V c t (blkRow y k) (rowAt (((cfg0.win 2).blk t).view.emb y) k) r0 rfl,
    mat_blk V c t (blkCol y k) (colAt (((cfg0.win 2).blk t).view.emb y) k) rfl r1]

/-! ## The ten blocks tile the array -/

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Row `r` lies in the block of point `r / 5000`, and every point writes its block back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx_facts ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4']; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

end Blocks

variable (V : (c : Dev nD) → (b : Ref sig .tc) → Buf (Elt Ideal) ((c : Thread nD τ).loc b))

/-- The result array after the ten points: every row of the features against every column of the matrix. Each point
    writes its block of that product, and the blocks tile the array. -/
theorem conv_final (c : Dev nD) :
    (dat0 (F := Ideal) V c).arrAt 2 cfg0.N = rowsDot (V c main_arg0) (V c main_v32) :=
  (dat0 (F := Ideal) V c).arrAt_eq_of_cover 2 (rowsDot (V c main_arg0) (V c main_v32))
    (fun t _ => flushed_eq V c t) cover

end Cert.KernelIdeal.ConvRows

end
-- ==== Proof.PoolLinear.lean ====
/-
  The second kernel region: the per-graph mean and the linear layer, in one block.

  Its grid has one point and every window's block is its whole array. The body divides the [512, 128] per-graph sums
  by the node counts — a [512, 1] column, clamped below at one and spread along the features —, multiplies the quotient
  with the [128, 64] transposed weights into a zero accumulator and adds the [1, 64] bias row spread down the graphs.
  At the extended reals entry (g, j) is  Σ_k (s[g, k] / max(cnt[g, 0], 1)) · w[k, j] + b[0, j]: the array after the
  region is `meanLinear` of the four arrays the region read.
-/
import proofs.«424621_j18519898980624_2_alg».proof.Proof.Gen.KernelIdeal.Frame
import proofs.«424621_j18519898980624_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PoolLinear

open Idealize.ShloMosaic Idealize.ShloMosaic.TcCoe Idealize.SL.Sem Cert.KernelIdeal Cert.KernelIdeal.Gen Cert.Spec
open Idealize.ShloMosaic.Pipeline (Dat Cfg Window)

variable (V : (c : Dev nD) → (b : Ref sig .tc) → Buf (Elt Ideal) ((c : Thread nD τ).loc b))

/-! ## The contraction of the pooled means with the linear layer, at an index

The matrix product contracts axis 1 of its [512, 128] left operand with axis 0 of its [128, 64] right operand: the
left operand is read at (row of the result, k) and the right at (k, column of the result). -/

theorem lhs_row (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem lhs_contr (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem rhs_contr (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem rhs_col (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- The product into the zero accumulator, entry (g, j): the sum over k of left (g, k) times right (k, j). -/
theorem product_at (p : FVec Ideal S512x128 .bf16) (w : FVec Ideal S128x64 .bf16) (j : S512x64.Idx) :
    matmul dot_S512x128_S128x64_S512x64_1_0_0_1_n_n none p w (constant (F := Ideal) S512x64 .f32 0x00000000#32) j
      = ∑ k : Fin 128, p (sumAt j k) * w (linAt j k) := by
  simp only [matmul]
  rw [Ideal.matmul_constant_zero_apply, ← Equiv.sum_comp (ValueIdx.contrEquiv1 dot_S512x128_S128x64_S512x64_1_0_0_1_n_n 128 rfl rfl).symm]
  refine Finset.sum_congr rfl fun k _ => ?_
  have hk := ValueIdx.contrEquiv1_symm_val dot_S512x128_S128x64_S512x64_1_0_0_1_n_n 128 rfl rfl k
  have el : dot_S512x128_S128x64_S512x64_1_0_0_1_n_n.lhsIdx j ((ValueIdx.contrEquiv1 dot_S512x128_S128x64_S512x64_1_0_0_1_n_n 128 rfl rfl).symm k) = sumAt j k := funext fun a => Fin.ext (by
    match a with
    | ⟨0, _⟩ => exact lhs_row _ _
    | ⟨1, _⟩ => exact (lhs_contr _ _).trans hk)
  have er : dot_S512x128_S128x64_S512x64_1_0_0_1_n_n.rhsIdx j ((ValueIdx.contrEquiv1 dot_S512x128_S128x64_S512x64_1_0_0_1_n_n 128 rfl rfl).symm k) = linAt j k := funext fun a => Fin.ext (by
    match a with
    | ⟨0, _⟩ => exact (rhs_contr _ _).trans hk
    | ⟨1, _⟩ => exact rhs_col _ _)
  rw [el, er]

/-- The count column spread along the 128 features reads (g, 0) at (g, k). -/
theorem count_spread_at (x : FVec Ideal S512x1 .f32) (j : S512x64.Idx) (k : Fin 128) :
    broadcastTo S512x128 x broadcasts_S512x1_S512x128 (sumAt j k) = x (cntAt j) :=
  broadcastTo_apply x broadcasts_S512x1_S512x128 (sumAt j k) (cntAt j) (fun a => by
    match a with
    | ⟨0, _⟩ => rfl
    | ⟨1, _⟩ => rfl)

/-- The bias row spread down the 512 graphs reads (0, j) at (g, j). -/
theorem bias_spread_at (x : FVec Ideal S1x64 .f32) (j : S512x64.Idx) :
    broadcastTo S512x64 x broadcasts_S1x64_S512x64 j = x (biasAt j) :=
  broadcastTo_apply x broadcasts_S1x64_S512x64 j (biasAt j) (fun a => by
    match a with
    | ⟨0, _⟩ => rfl
    | ⟨1, _⟩ => rfl)

/-! ## The body's arithmetic at an index -/

/-- Entry (g, j) of what the body stores: the mean of graph g's pooled sums (each over the count clamped below at
    one) against column j of the linear layer, plus the bias at j. The casts to a shorter float are the identity on
    the extended reals, and so are the reshapes to the same shape. -/
theorem payload_at (x0 : Vec Ideal S512x128 .f32) (x1 : Vec Ideal S512x1 .f32) (x2 : Vec Ideal S128x64 .f32) (x3 : Vec Ideal S1x64 .f32)
    (j : S512x64.Idx) :
    k1_pay1 (F := Ideal) x0 x1 x2 x3 j
      = (∑ k : Fin 128, Ideal.div (x0 (sumAt j k)) (max (x1 (cntAt j)) (Ideal.ofBits .f32 0x3F800000#32)) * x2 (linAt j k))
        + x3 (biasAt j) := by
  unfold k1_pay1
  simp only [shapeCast_self]
  rw [ValueIdx.addf_apply, product_at, bias_spread_at]
  refine congrArg (· + x3 (biasAt j)) (Finset.sum_congr rfl fun k _ => ?_)
  rw [ValueIdx.truncf_apply, ValueIdx.truncf_apply, ValueIdx.divf_apply, count_spread_at, ValueIdx.maximumf_apply,
    ValueIdx.broadcast_apply]
  rfl

/-! ## The one grid point's blocks are the whole arrays -/

theorem origin : (![0, 0] : Fin 2 → Nat) = fun _ => 0 := funext fun a => by fin_cases a <;> rfl

/-- Every window's block index is (0, 0) at every point of the grid (decided over its one point). -/
theorem block_index_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The pooled sums' block is the array of pooled sums. -/
theorem sums_block (c : Dev nD) (t : Fin cfg1.N) :
    (iblk1 (F := Ideal) V c 0 t : Vec Ideal S512x128 .f32) = V c main_v52 := by
  funext y
  unfold iblk1
  show V c main_v52 (((cfg1.win 0).blk t).view.emb y) = V c main_v52 y
  obtain ⟨e00, e01, -⟩ := block_index_zero t
  refine congrArg (V c main_v52) (funext fun a => Fin.ext ?_)
  match a with
  | ⟨0, _⟩ => show win1_0.index t (0 : Fin 2) * 512 + 1 * (y 0).val = (y 0).val; omega
  | ⟨1, _⟩ => show win1_0.index t (1 : Fin 2) * 128 + 1 * (y 1).val = (y 1).val; omega

/-- The count column's block is the count column. -/
theorem count_block (c : Dev nD) (t : Fin cfg1.N) :
    (iblk1 (F := Ideal) V c 1 t : Vec Ideal S512x1 .f32) = V c main_v57 := by
  funext y
  unfold iblk1
  show V c main_v57 (((cfg1.win 1).blk t).view.emb y) = V c main_v57 y
  obtain ⟨-, -, e10, e11, -⟩ := block_index_zero t
  refine congrArg (V c main_v57) (funext fun a => Fin.ext ?_)
  match a with
  | ⟨0, _⟩ => show win1_1.index t (0 : Fin 2) * 512 + 1 * (y 0).val = (y 0).val; omega
  | ⟨1, _⟩ => show win1_1.index t (1 : Fin 2) * 1 + 1 * (y 1).val = (y 1).val; omega

/-- The linear layer's block is its whole weight matrix. -/
theorem weights_block (c : Dev nD) (t : Fin cfg1.N) :
    (iblk1 (F := Ideal) V c 2 t : Vec Ideal S128x64 .f32) = V c main_v58 := by
  funext y
  unfold iblk1
  show V c main_v58 (((cfg1.win 2).blk t).view.emb y) = V c main_v58 y
  obtain ⟨-, -, -, -, e20, e21, -⟩ := block_index_zero t
  refine congrArg (V c main_v58) (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- The bias row's block is the bias row. -/
theorem bias_block (c : Dev nD) (t : Fin cfg1.N) :
    (iblk1 (F := Ideal) V c 3 t : Vec Ideal S1x64 .f32) = V c main_v59 := by
  funext y
  unfold iblk1
  show V c main_v59 (((cfg1.win 3).blk t).view.emb y) = V c main_v59 y
  obtain ⟨-, -, -, -, -, -, e30, e31, -⟩ := block_index_zero t
  refine congrArg (V c main_v59) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-! ## What the one point writes back, the cover, and the array after the region -/

/-- The body's stored value, as a whole array, is the mean-then-linear function of the four loaded arrays. -/
theorem payload_eq (x0 : Vec Ideal S512x128 .f32) (x1 : Vec Ideal S512x1 .f32) (x2 : Vec Ideal S128x64 .f32) (x3 : Vec Ideal S1x64 .f32) :
    k1_pay1 (F := Ideal) x0 x1 x2 x3 = meanLinear x0 x1 x2 x3 :=
  funext fun j => payload_at x0 x1 x2 x3 j

/-- The output's block at the one point is the whole [512, 64] array: a block coordinate is the array coordinate. -/
theorem out_emb (t : Fin cfg1.N) (j : S512x64.Idx) : ((cfg1.win 4).blk t).view.emb j = j := by
  obtain ⟨-, -, -, -, -, -, -, -, e40, e41⟩ := block_index_zero t
  funext a; apply Fin.ext
  match a with
  | ⟨0, _⟩ => show win1_4.index t (0 : Fin 2) * 512 + 1 * (j 0).val = (j 0).val; omega
  | ⟨1, _⟩ => show win1_4.index t (1 : Fin 2) * 64 + 1 * (j 1).val = (j 1).val; omega

/-- What point `t` writes back to the output array is block `t` of the mean-then-linear function of the arrays the
    region finds. -/
theorem flushed_eq (c : Dev nD) (t : Fin cfg1.N) :
    (dat1 (F := Ideal) V c).flushed 4 t
      = ((cfg1.win 4).blk t).view.read (Elt Ideal) (meanLinear (V c main_v52) (V c main_v57) (V c main_v58) (V c main_v59)) := by
  show (cfg1.win 4).cut (grid1.coords t) ((dat1 V c).after 4 t) = _
  rw [after1_4]
  unfold out1_4
  rw [View.canon_unit_zero origin]
  simp only [View.ld_unit_zero (S := S512x128) origin, View.ld_unit_zero (S := S512x1) origin,
    View.ld_unit_zero (S := S128x64) origin, View.ld_unit_zero (S := S1x64) origin]
  rw [sums_block V c t, count_block V c t, weights_block V c t, bias_block V c t, payload_eq]
  funext j
  show meanLinear (V c main_v52) (V c main_v57) (V c main_v58) (V c main_v59) j
    = meanLinear (V c main_v52) (V c main_v57) (V c main_v58) (V c main_v59) (((cfg1.win 4).blk t).view.emb j)
  rw [out_emb]

/-- An index of the output array is in point `t`'s block iff each coordinate is in the block's range on its axis. -/
theorem mem_out_block (t : Fin cfg1.N) (i : S512x64.Idx) :
    i ∈ ((cfg1.win 4).blk t).view.set ↔ ∀ a : Fin 2, win1_4.index t a * S512x64.size a ≤ (i a).val ∧ (i a).val < win1_4.index t a * S512x64.size a + S512x64.size a := by
  show i ∈ ((View.whole main_v60).slice (win1_4.rect t)).set ↔ _
  rw [View.set_slice_whole, Rect.mem_set_unit]
  exact Iff.rfl

/-- Every index of the output array is in the one point's block. -/
theorem out_covered (i : S512x64.Idx) :
    ∃ t : Fin cfg1.N, (cfg1.win 4).flush t = true ∧ i ∈ ((cfg1.win 4).blk t).view.set := by
  have hi0 : (i 0).val < 512 := (i 0).isLt
  have hi1 : (i 1).val < 64 := (i 1).isLt
  obtain ⟨-, -, -, -, -, -, -, -, e40, e41⟩ := block_index_zero t1_0
  refine ⟨t1_0, flush1_4 t1_0, ?_⟩
  rw [mem_out_block]
  intro a
  match a with
  | ⟨0, _⟩ => show win1_4.index t1_0 (0 : Fin 2) * 512 ≤ (i 0).val ∧ (i 0).val < win1_4.index t1_0 (0 : Fin 2) * 512 + 512; omega
  | ⟨1, _⟩ => show win1_4.index t1_0 (1 : Fin 2) * 64 ≤ (i 1).val ∧ (i 1).val < win1_4.index t1_0 (1 : Fin 2) * 64 + 64; omega

/-- The output array after the region is the per-graph mean followed by the linear layer, of the arrays the region
    finds. -/
theorem pool_final (c : Dev nD) :
    (dat1 (F := Ideal) V c).arrAt 4 cfg1.N = meanLinear (V c main_v52) (V c main_v57) (V c main_v58) (V c main_v59) :=
  (dat1 (F := Ideal) V c).arrAt_eq_of_cover 4 _ (fun t _ => flushed_eq V c t) out_covered

end Cert.KernelIdeal.PoolLinear

end
-- ==== Proof.RefStages.lean ====
/-
  The reference's two dense stages are the specification's functions.

  * Its `dot_general` of the node features with the transposed convolution weights, read at (r, j), is
    Σ_k x[r, k] · Wᵀ[k, j]: `rowsDot`.
  * Its tail — the node counts clamped below at one, broadcast over the 128 features, the quotient, the `dot_general`
    with the transposed linear weights and the broadcast bias — read at (g, j) is
    Σ_k (sums[g, k] / max(cnt[g], 1)) · W_linᵀ[k, j] + b[j]: `meanLinear` of the per-graph sums, the counts as a
    column, the transposed weights and the bias as a row. Clamping a count and then making it a column is making it a
    column and then clamping: both read the one count of graph g.
  Only the reading of each operation at an index is used; no law of the extended reals.
-/
import proofs.«424621_j18519898980624_2_alg».proof.Proof.Gen.ReferenceIdeal.Read
import proofs.«424621_j18519898980624_2_alg».proof.Proof.Spec

noncomputable section

namespace Cert.ReferenceIdeal.Stages

open Idealize.ShloMosaic Idealize.ShloMosaic.TcCoe Cert.ReferenceIdeal Cert.ReferenceIdeal.Gen Cert.ReferenceIdeal.Read Cert.Spec

/-! ## The dense transform of the node features -/

theorem rowAt_eq (i : S50000x128.Idx) (k : Fin 128) : rowAt i k = lidx_main_v33 i k :=
  funext fun a => by match a with | ⟨0, _⟩ => rfl | ⟨1, _⟩ => rfl

theorem colAt_eq (i : S50000x128.Idx) (k : Fin 128) : colAt i k = ridx_main_v33 i k :=
  funext fun a => by match a with | ⟨0, _⟩ => rfl | ⟨1, _⟩ => rfl

/-- Rows of the features against columns of the transposed weights: the reference's first `dot_general`. -/
theorem rowsDot_eq (x0 : (⟨S50000x128, .f32⟩ : BufTy).Contents (Elt Ideal)) (x4 : (⟨S128x128, .f32⟩ : BufTy).Contents (Elt Ideal)) :
    rowsDot x0 (val_main_v32 (F := Ideal) x4) = val_main_v33 (F := Ideal) x0 x4 := by
  funext i
  rw [val_main_v33_apply]
  show ∑ k : Fin 128, x0 (rowAt i k) * val_main_v32 (F := Ideal) x4 (colAt i k) = _
  exact Finset.sum_congr rfl fun k _ => by rw [rowAt_eq, colAt_eq]

/-! ## The mean and the linear layer -/

/-- A column made of a vector reads the vector at its row. -/
theorem column_apply (y : (⟨S512, .f32⟩ : BufTy).Contents (Elt Ideal)) (i : S512x1.Idx) :
    broadcastInDim S512x1 ![0] bcast_S512_S512x1_0 y i = y (idx_main_v59 i) :=
  broadcastInDim_apply _ bcast_S512_S512x1_0 y i (idx_main_v59 i) (fun a => match a with
    | ⟨0, _⟩ => by show (i 0).val = if (512 : Nat) = 1 then 0 else (i 0).val; rw [if_neg (by decide)])

theorem sumAt_eq (i : S512x64.Idx) (k : Fin 128) : sumAt i k = lidx_main_v63 i k :=
  funext fun a => by match a with | ⟨0, _⟩ => rfl | ⟨1, _⟩ => rfl

theorem linAt_eq (i : S512x64.Idx) (k : Fin 128) : linAt i k = ridx_main_v63 i k :=
  funext fun a => by match a with | ⟨0, _⟩ => rfl | ⟨1, _⟩ => rfl

theorem biasAt_eq (i : S512x64.Idx) : biasAt i = idx_main_v65 i :=
  funext fun a => by match a with | ⟨0, _⟩ => rfl | ⟨1, _⟩ => rfl

/-- The count read for output (g, j) is graph g's, whichever feature k the quotient is taken at. -/
theorem cnt_row_eq (i : S512x64.Idx) (k : Fin 128) :
    idx_main_v59 (cntAt i) = idx_main_v59 (idx_main_v60 (lidx_main_v63 i k)) :=
  funext fun a => by match a with | ⟨0, _⟩ => rfl

/-- The reference's result is the mean-and-linear function of its per-graph sums, its node counts as a column, the
    transposed linear weights and the bias row. -/
theorem meanLinear_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S800000, .f32⟩ : BufTy).Contents (Elt Ideal))
    (x4 : (⟨S128x128, .f32⟩ : BufTy).Contents (Elt Ideal)) (x5 : (⟨S128, .f32⟩ : BufTy).Contents (Elt Ideal)) (x6 : (⟨S64x128, .f32⟩ : BufTy).Contents (Elt Ideal)) (x7 : (⟨S64, .f32⟩ : BufTy).Contents (Elt Ideal)) :
    meanLinear (val_main_v52 (F := Ideal) x0 x1 x2 x3 x4 x5)
        (broadcastInDim S512x1 ![0] bcast_S512_S512x1_0 (val_main_v56 (F := Ideal) x2))
        (val_main_v62 (F := Ideal) x6) (val_main_v64 (F := Ideal) x7)
      = val_main_v66 (F := Ideal) x0 x1 x2 x3 x4 x5 x6 x7 := by
  funext i
  rw [val_main_v66_apply, val_main_v63_apply, val_main_v65_apply]
  show (∑ k : Fin 128, Ideal.div (val_main_v52 (F := Ideal) x0 x1 x2 x3 x4 x5 (sumAt i k))
        (max (broadcastInDim S512x1 ![0] bcast_S512_S512x1_0 (val_main_v56 (F := Ideal) x2) (cntAt i)) (Ideal.ofBits .f32 0x3F800000#32))
        * val_main_v62 (F := Ideal) x6 (linAt i k)) + val_main_v64 (F := Ideal) x7 (biasAt i) = _
  rw [biasAt_eq, column_apply]
  refine congrArg (· + val_main_v64 (F := Ideal) x7 (idx_main_v65 i)) (Finset.sum_congr rfl fun k _ => ?_)
  rw [sumAt_eq, linAt_eq, cnt_row_eq i k, val_main_v61_apply, val_main_v60_apply, val_main_v59_apply, val_main_v58_apply,
    val_main_v57_apply, val_main_cst_12_apply]
  rfl

end Cert.ReferenceIdeal.Stages

end
-- ==== Proof.Bridge.lean ====
/-
  The kernel's result is the reference's last stage, as a function of the launch arguments.

  The first region leaves  rows(x) · W_convᵀ  in its output array, which is the reference's first `dot_general`; the second
  host stretch is then the reference's own chain of gather, weighting, scatter-adds, bias and pooling applied to it; the
  second region computes the mean and the linear layer of what that stretch left, which is the reference's tail. Each
  step is one equation between whole arrays.
-/
import proofs.«424621_j18519898980624_2_alg».proof.Proof.KernelRun
import proofs.«424621_j18519898980624_2_alg».proof.Proof.HostReads
import proofs.«424621_j18519898980624_2_alg».proof.Proof.ConvRows
import proofs.«424621_j18519898980624_2_alg».proof.Proof.PoolLinear
import proofs.«424621_j18519898980624_2_alg».proof.Proof.RefStages

set_option maxRecDepth 16384

noncomputable section

namespace Cert.KernelIdeal.Bridge

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- After the first region its output array holds the reference's transformed node features  x · W_convᵀ. -/
theorem W4_v33 (c : Dev nD) : W4 m ρ c (Proc.devRef .tc main_v33)
    = Cert.ReferenceIdeal.Read.val_main_v33 (F := Ideal) (m ((c : Thread nD τ).loc main_arg0)) (m ((c : Thread nD τ).loc main_arg4)) := by
  refine (W4_arr m ρ c 2).trans ((ConvRows.conv_final (V3 m ρ) c).trans ?_)
  rw [HostReads.V3_arg0, HostReads.V3_v32]
  exact Cert.ReferenceIdeal.Stages.rowsDot_eq _ _

/-- After the second region the result buffer holds the reference's result. -/
theorem result_eq (c : Dev nD) : W6 m ρ c (Proc.devRef .tc main_v60)
    = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 4).trans ((PoolLinear.pool_final (V5 m ρ) c).trans ?_)
  rw [HostReads.V5_v52_of m ρ c (W4_v33 m ρ c), HostReads.V5_v57, HostReads.V5_v58, HostReads.V5_v59]
  exact Cert.ReferenceIdeal.Stages.meanLinear_eq _ _ _ _ _ _ _ _

end Cert.KernelIdeal.Bridge

end
-- ==== Proof.lean ====
/-
  A graph-convolution probe: one GCN layer with self-loops and symmetric normalisation over 50000 nodes and 800000
  edges, a global mean pool over 512 graphs, and a linear layer.

  The kernel's program and the reference share every irregular step — appending the self-loops, the degree
  scatter-add, the inverse square roots, the edge normalisation, the gather along the sources, the scatter-add onto
  the targets, the bias, the per-graph sums and node counts — as the same host operations in the same order. They
  differ in the two dense steps, which the kernel's program runs as kernel regions:
    * h = x · W_convᵀ, ten blocks of 5000 rows, each block one matrix product into a zero accumulator, against the
      reference's one `dot_general`: at the extended reals both are  h[r, j] = Σ_k x[r, k] · W_conv[j, k];
    * out = (sums / max(cnt, 1)) · W_linᵀ + b in one block, the quotient taken inside the kernel with the count as a
      column, against the reference's clamp, broadcasts, quotient, `dot_general` and broadcast bias: both are
      out[g, j] = Σ_k (sums[g, k] / max(cnt[g], 1)) · W_lin[j, k] + b[j].
  The narrowing of the products' operands to bf16 is the identity on the extended reals, so no law beyond reading each
  operation at an index is needed, and the precondition (finite inputs) is never opened.

  The modules: Spec (the two dense steps as whole-array functions), ConvRows and PoolLinear (what each kernel region
  leaves in its output array), HostReads (the kernel program's host stretches leave the reference's stages), RefStages
  (the reference's dense steps are the specification's), KernelRun (the kernel program's run with its result buffer
  read), Bridge (the kernel's result is the reference's last stage).
-/
import proofs.«424621_j18519898980624_2_alg».proof.Defs
import proofs.«424621_j18519898980624_2_alg».proof.Proof.Gen.Kernel
import proofs.«424621_j18519898980624_2_alg».proof.Proof.Gen.Kernel.Skeleton
import proofs.«424621_j18519898980624_2_alg».proof.Proof.Gen.Kernel.Launch
import proofs.«424621_j18519898980624_2_alg».proof.Proof.Gen.Kernel.Points
import proofs.«424621_j18519898980624_2_alg».proof.Proof.Gen.Kernel.Frame
import proofs.«424621_j18519898980624_2_alg».proof.Proof.Gen.KernelIdeal
import proofs.«424621_j18519898980624_2_alg».proof.Proof.Gen.KernelIdeal.Skeleton
import proofs.«424621_j18519898980624_2_alg».proof.Proof.Gen.KernelIdeal.Launch
import proofs.«424621_j18519898980624_2_alg».proof.Proof.Gen.KernelIdeal.Points
import proofs.«424621_j18519898980624_2_alg».proof.Proof.Gen.KernelIdeal.Frame
import proofs.«424621_j18519898980624_2_alg».proof.Proof.Gen.ReferenceIdeal
import proofs.«424621_j18519898980624_2_alg».proof.Proof.Gen.ReferenceIdeal.Run
import proofs.«424621_j18519898980624_2_alg».proof.Proof.Gen.ReferenceIdeal.Read
import proofs.«424621_j18519898980624_2_alg».proof.Proof.Gen.Pre_finite_inputs
import proofs.«424621_j18519898980624_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Gen.run_result m ρ)
    exact ⟨(h c).1.trans (Cert.KernelIdeal.Bridge.result_eq m ρ c), (h c).2⟩
  · refine (θ_run Cert.ReferenceIdeal.defs _ _).mono (fun r h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v66_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
